-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S1024x4096 .f32) (main_arg2 : FVec F S4096 .f32) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S512x1024 : Shape := ⟨2, ![512, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S512x4096 : Shape := ⟨2, ![512, 4096]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1x4096, .f32⟩
  | .hbm, ⟨6, _⟩ => ⟨S1x1024, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x4096, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S4096x1024, .bf16⟩
  | .local _ .vmem, ⟨8, _⟩ => ⟨S2x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  shapeCasts_S1024_S1x1024 : S1024.ShapeCasts S1x1024
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S1024x4096_S1024x1024_0_0 : ∀ a, (![0, 0] : Fin 2 → Nat) a + S1024x1024.size a ≤ S1024x4096.size a
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  inb_S1024x4096_S1024x1024_0_1024 : ∀ a, (![0, 1024] : Fin 2 → Nat) a + S1024x1024.size a ≤ S1024x4096.size a
  h_S1x1024x1024 : 0 < S1x1024x1024.numel
  shapeCasts_S1x1024x1024_S1024x1024 : S1x1024x1024.ShapeCasts S1024x1024
  bitsLt_bf16_f32 : FTy.bits .bf16 < FTy.bits .f32
  h_S1024x1024 : 0 < S1024x1024.numel
  shapeCasts_S1024x1024_S1024x1024 : S1024x1024.ShapeCasts S1024x1024
  packedbf16_S1024x4096_S1024x1024_0_0 : (Rect.unit (s := S1024x4096) ![0, 0] S1024x1024.size inb_S1024x4096_S1024x1024_0_0).PackedRows (EltTy.packing .bf16)
  inb_S1024x4096_S1024x1024_0_2048 : ∀ a, (![0, 2048] : Fin 2 → Nat) a + S1024x1024.size a ≤ S1024x4096.size a
  packedbf16_S1024x4096_S1024x1024_0_1024 : (Rect.unit (s := S1024x4096) ![0, 1024] S1024x1024.size inb_S1024x4096_S1024x1024_0_1024).PackedRows (EltTy.packing .bf16)
  inb_S1024x4096_S1024x1024_0_3072 : ∀ a, (![0, 3072] : Fin 2 → Nat) a + S1024x1024.size a ≤ S1024x4096.size a
  packedbf16_S1024x4096_S1024x1024_0_2048 : (Rect.unit (s := S1024x4096) ![0, 2048] S1024x1024.size inb_S1024x4096_S1024x1024_0_2048).PackedRows (EltTy.packing .bf16)
  packedbf16_S1024x4096_S1024x1024_0_3072 : (Rect.unit (s := S1024x4096) ![0, 3072] S1024x1024.size inb_S1024x4096_S1024x1024_0_3072).PackedRows (EltTy.packing .bf16)
  inb_S4096x1024_S1024x1024_0_0 : ∀ a, (![0, 0] : Fin 2 → Nat) a + S1024x1024.size a ≤ S4096x1024.size a
  inb_S4096x1024_S1024x1024_1024_0 : ∀ a, (![1024, 0] : Fin 2 → Nat) a + S1024x1024.size a ≤ S4096x1024.size a
  packedbf16_S4096x1024_S1024x1024_0_0 : (Rect.unit (s := S4096x1024) ![0, 0] S1024x1024.size inb_S4096x1024_S1024x1024_0_0).PackedRows (EltTy.packing .bf16)
  inb_S4096x1024_S1024x1024_2048_0 : ∀ a, (![2048, 0] : Fin 2 → Nat) a + S1024x1024.size a ≤ S4096x1024.size a
  packedbf16_S4096x1024_S1024x1024_1024_0 : (Rect.unit (s := S4096x1024) ![1024, 0] S1024x1024.size inb_S4096x1024_S1024x1024_1024_0).PackedRows (EltTy.packing .bf16)
  inb_S4096x1024_S1024x1024_3072_0 : ∀ a, (![3072, 0] : Fin 2 → Nat) a + S1024x1024.size a ≤ S4096x1024.size a
  packedbf16_S4096x1024_S1024x1024_2048_0 : (Rect.unit (s := S4096x1024) ![2048, 0] S1024x1024.size inb_S4096x1024_S1024x1024_2048_0).PackedRows (EltTy.packing .bf16)
  packedbf16_S4096x1024_S1024x1024_3072_0 : (Rect.unit (s := S4096x1024) ![3072, 0] S1024x1024.size inb_S4096x1024_S1024x1024_3072_0).PackedRows (EltTy.packing .bf16)
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hcc0_scratch3 : 6 + S2.numel ≤ 8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S1x4096.size a ≤ S1x4096.size a
  hwx0_1 : ∀ i : grid0.Coords, EltTy.bits .f32 = 32 ∨ (Rect.block (s := S1x4096) S1x4096.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_4 i = cc0_transform_4 i'
  hinb0_2 : ∀ (i : grid0.Coords) a, (cc0_transform_4 i a + 1) * S1x1024.size a ≤ S1x1024.size a
  hwx0_2 : ∀ i : grid0.Coords, EltTy.bits .f32 = 32 ∨ (Rect.block (s := S1x1024) S1x1024.size (cc0_transform_4 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_5 i = cc0_transform_5 i'
  hinb0_3 : ∀ (i : grid0.Coords) a, (cc0_transform_5 i a + 1) * S512x1024.size a ≤ S4096x1024.size a
  hwx0_3 : ∀ i : grid0.Coords, EltTy.bits .f32 = 32 ∨ (Rect.block (s := S4096x1024) S512x1024.size (cc0_transform_5 i) (hinb0_3 i)).WholeWords (EltTy.packing .f32)

variable [Facts₀]

abbrev cc0_scratch3 : DmaSems sig S2 := SemArray.consecutive 6 S2 hcc0_scratch3
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_4 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_5 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S1024 : Shape := ⟨1, ![1024]⟩
abbrev S4096x4096 : Shape := ⟨2, ![4096, 4096]⟩
abbrev S1x4096 : Shape := ⟨2, ![1, 4096]⟩
abbrev S_ : Shape := ⟨0, ![]⟩
abbrev S1x1024 : Shape := ⟨2, ![1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibStageSlot.lean ====
/-
  A buffer used as a row of equal slots, written one slot at a time through the RESHAPED slice of a slot and read
  back through the slot's own rectangle of the whole buffer.

  A staging buffer of shape [n, r, c] that is filled slot by slot (each fill addressed as an [r, c] view of slot `k`:
  the slice at the rectangle, its unit axis dropped) and read slot by slot (each read addressed as the [1, r, c]
  rectangle at offset `(k, 0, 0)`) presents the same elements under two different index types. The two facts below
  are all that a value proof needs of it:

    * reading the slot that was just written whole gives back the written vector, up to the change of index type
      (`cast_readAt_write_same`): the reshaped slice and the rectangle name the same elements in the same order;
    * reading one slot does not see a write into a rectangle that shares no element with it
      (`readAt_write_of_disjoint`): the write leaves every element outside its own rectangle alone.

  Both hold for any view, any rectangles, any element values: nothing here depends on a program. Each is stated
  for a view and restated for a memref's squeezed slice, which is the same view.
-/
import Idealize.ShloMosaic.Lib.Pipeline.Value

namespace Idealize.ShloMosaic.StageSlot

variable {sig : RefSig} {κ : Kind} {cs : Space} {s s' : Shape} {e : EltTy} {Val : EltTy → Type}

/-- A buffer read through the reshape of a view's slice at `r` is the vector a load through the view at `r` reads, with
    its index type changed: both place the reshaped index by row-major position in the rectangle. -/
theorem read_reshape_slice (v : View sig κ cs s e) (r : Rect s) (hn : s'.numel = r.shape.numel)
    (hc : r.shape.ShapeCasts s') (f : v.ty.Contents Val) :
    ((v.slice r).reshape s' hn).read Val f = shapeCast s' (v.readAt Val r.toLoadRect f) hc := rfl

/-- Write a vector through the reshape of the slice at rectangle `r`, over any contents, on every index; load the
    rectangle `r` of the view; change the index type back: the vector written. -/
theorem cast_readAt_write_same (v : View sig κ cs s e) (r : Rect s) (hn : s'.numel = r.shape.numel)
    (hc : r.shape.ShapeCasts s') (f : v.ty.Contents Val) (w : s'.Idx → Val e) :
    shapeCast s' (v.readAt Val r.toLoadRect (((v.slice r).reshape s' hn).write Val f w Finset.univ)) hc = w :=
  (read_reshape_slice v r hn hc _).symm.trans (View.read_write_univ _ _)

/-- A load at coordinates `r` does not see a write through the reshape of the slice at a rectangle `r'` that shares no
    element with `r`, whatever was written and on whatever mask. -/
theorem readAt_write_of_disjoint (v : View sig κ cs s e) (r : LoadRect s) (r' : Rect s) (hn : s'.numel = r'.shape.numel)
    (hd : Disjoint r.set r'.set) (f : v.ty.Contents Val) (w : s'.Idx → Val e) (Msk : Finset s'.Idx) :
    v.readAt Val r (((v.slice r').reshape s' hn).write Val f w Msk) = v.readAt Val r f := by
  refine View.readAt_congr fun i hi => View.write_of_not_mem _ _ _ fun hm => ?_
  have e : ((v.slice r').reshape s' hn).set = (v.slice r').set := View.set_reshape _ _
  have h1 : i ∈ r'.set.map v.emb :=
    (Finset.ext_iff.mp (e.trans (View.set_slice _ r')) i).mp (View.setOn_subset_set _ Msk hm)
  obtain ⟨y, hy, rfl⟩ := Finset.mem_map.mp h1
  obtain ⟨x, hx, hxe⟩ := Finset.mem_map.mp hi
  obtain rfl : x = y := v.emb.injective hxe
  exact Finset.disjoint_left.mp hd hx hy

/-- The first fact for a memref's squeezed slice. -/
theorem Memref.cast_readAt_write_same (M : Memref sig κ cs s e) (r : Rect s) (hr : ∀ a, r.stride a = 1)
    (hq : r.shape.Squeezes s') (hc : r.shape.ShapeCasts s') (f : M.view.ty.Contents Val) (w : s'.Idx → Val e) :
    shapeCast s' (M.view.readAt Val r.toLoadRect (((M.slice r hr).squeeze s' hq).view.write Val f w Finset.univ)) hc = w :=
  StageSlot.cast_readAt_write_same M.view r hq.numel_eq hc f w

/-- The second fact for a memref's squeezed slice. -/
theorem Memref.readAt_write_of_disjoint (M : Memref sig κ cs s e) (r : LoadRect s) (r' : Rect s) (hr' : ∀ a, r'.stride a = 1)
    (hq : r'.shape.Squeezes s') (hd : Disjoint r.set r'.set) (f : M.view.ty.Contents Val) (w : s'.Idx → Val e)
    (Msk : Finset s'.Idx) :
    M.view.readAt Val r (((M.slice r' hr').squeeze s' hq).view.write Val f w Msk) = M.view.readAt Val r f :=
  StageSlot.readAt_write_of_disjoint M.view r r' hq.numel_eq hd f w Msk

end Idealize.ShloMosaic.StageSlot
-- ==== Proof.MlpSpec.lean ====
/-
  The two-layer perceptron as ONE function of its five argument arrays, entry by entry, over the extended reals:

      hidden(r, j) = max (∑ k, x(r, k) · W1(k, j) + b1(j)) 0          (the rectified first layer)
      out(r, c)    = ∑ j, hidden(r, j) · W2(j, c) + b2(c)              (the second layer, no activation)

  Both programs of this certificate compute exactly this function: the only freedom they take is where the
  sums are cut (the kernel takes 512 rows of `x` at a time; the reference takes all 4096 at once), and a sum over
  `k` or `j` of one row does not see that cut. The zero the rectifier compares with is kept as the word both
  programs print for it, so that it is never evaluated.
-/
import Idealize.ShloMosaic.PureOps.Ideal
import Idealize.ShloMosaic.Lib.ValueIdx

noncomputable section

namespace Cert.MlpSpec

open Idealize.ShloMosaic Idealize.ShloMosaic.ValueIdx

/-- The rectifier's zero: the f32 word `+0.0` read at the ideal values. -/
abbrev zeroWord : EReal := Ideal.ofBits .f32 0x00000000#32

/-- Unit `j` of the hidden layer on row `r`: the affine form of the row against column `j` of `W1`, rectified. -/
def hidden (x : (⟨2, ![4096, 1024]⟩ : Shape).Idx → EReal) (w1 : (⟨2, ![1024, 4096]⟩ : Shape).Idx → EReal)
    (b1 : (⟨1, ![4096]⟩ : Shape).Idx → EReal) (r : Fin 4096) (j : Fin 4096) : EReal :=
  max ((∑ k : Fin 1024, x (ix2 r k) * w1 (ix2 k j)) + b1 (ix1 j)) zeroWord

/-- Entry `(r, c)` of the result: the hidden row `r` against column `c` of `W2`, plus the output bias. -/
def out (x : (⟨2, ![4096, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) : (⟨2, ![4096, 1024]⟩ : Shape).Idx → EReal := fun i =>
  (∑ j : Fin 4096, hidden x w1 b1 (i 0) j * w2 (ix2 j (i 1))) + b2 (ix1 (i 1))

end Cert.MlpSpec

end
-- ==== Proof.RefIsSpec.lean ====
/-
  The reference program computes the perceptron of MlpSpec.lean.

  Its nine host operations are read one at a time: the first product's entry `(r, j)` is the sum over `k` of
  `x(r, k) · W1(k, j)`; the bias `b1` is broadcast along the rows, so entry `(r, j)` of the broadcast is `b1(j)`;
  the rectifier is the entrywise maximum with the zero word; the second product's entry `(r, c)` is the sum over
  `j` of the rectified entry `(r, j)` times `W2(j, c)`; and `b2` is broadcast the same way. Composing these
  readings at one index gives `MlpSpec.out` on the nose: no algebra is needed, only that the composed index maps are
  the coordinate pairs the specification names.
-/
import proofs.«424009_j4801773437611_3_alg».proof.Proof.Gen.ReferenceIdeal.Read
import proofs.«424009_j4801773437611_3_alg».proof.Proof.MlpSpec

noncomputable section

namespace Cert.ReferenceIdeal.RefValue

open Cert.ReferenceIdeal Cert.ReferenceIdeal.Read Idealize.ShloMosaic Idealize.ShloMosaic.ValueIdx

/-- The rectified first layer as the reference computes it, read at row `r` and unit `j`: the specification's
    hidden unit. The first product contracts `x`'s row `r` with `W1`'s column `j`; the two broadcasts of `b1` read
    it at `j`; the zero is the broadcast scalar word. -/
theorem hidden_at (x0 : (⟨S4096x1024, .f32⟩ : BufTy).Contents (Elt Ideal)) (x1 : (⟨S1024x4096, .f32⟩ : BufTy).Contents (Elt Ideal))
    (x2 : (⟨S4096, .f32⟩ : BufTy).Contents (Elt Ideal)) (r j : Fin 4096) :
    val_main_v4 (F := Ideal) x0 x1 x2 (ix2 r j) = Cert.MlpSpec.hidden x0 x1 x2 r j := by
  rw [val_main_v4_apply, val_main_v3_apply, val_main_v0_apply, val_main_v2_apply, val_main_v1_apply,
    val_main_call0_v0_apply, val_main_call0_cst_apply]
  have el : ∀ k : Fin 1024, lidx_main_v0 (ix2 r j) k = ix2 r k := fun k =>
    funext fun a => Fin.ext (by match a with | ⟨0, _⟩ => rfl | ⟨1, _⟩ => rfl)
  have er : ∀ k : Fin 1024, ridx_main_v0 (ix2 r j) k = ix2 k j := fun k =>
    funext fun a => Fin.ext (by match a with | ⟨0, _⟩ => rfl | ⟨1, _⟩ => rfl)
  have eb : idx_main_v1 (idx_main_v2 (ix2 r j)) = ix1 j := funext fun a => Fin.ext (by match a with | ⟨0, _⟩ => rfl)
  simp only [el, er, eb]
  rfl

/-- The reference's result array is the specification's function of the five arguments. -/
theorem result_eq (x0 : (⟨S4096x1024, .f32⟩ : BufTy).Contents (Elt Ideal)) (x1 : (⟨S1024x4096, .f32⟩ : BufTy).Contents (Elt Ideal))
    (x2 : (⟨S4096, .f32⟩ : BufTy).Contents (Elt Ideal)) (x3 : (⟨S4096x1024, .f32⟩ : BufTy).Contents (Elt Ideal))
    (x4 : (⟨S1024, .f32⟩ : BufTy).Contents (Elt Ideal)) :
    val_main_v8 (F := Ideal) x0 x1 x2 x3 x4 = Cert.MlpSpec.out x0 x1 x2 x3 x4 := by
  funext i
  rw [val_main_v8_apply, val_main_v5_apply, val_main_v7_apply, val_main_v6_apply]
  have e1 : ∀ k : Fin 4096, lidx_main_v5 i k = ix2 (n0 := 4096) (n1 := 4096) (i 0) k := fun k =>
    funext fun a => Fin.ext (by match a with | ⟨0, _⟩ => rfl | ⟨1, _⟩ => rfl)
  have e2 : ∀ k : Fin 4096, ridx_main_v5 i k = ix2 (n0 := 4096) (n1 := 1024) k (i 1) := fun k =>
    funext fun a => Fin.ext (by match a with | ⟨0, _⟩ => rfl | ⟨1, _⟩ => rfl)
  have hb : idx_main_v6 (idx_main_v7 i) = ix1 (n := 1024) (i 1) := funext fun a => Fin.ext (by match a with | ⟨0, _⟩ => rfl)
  simp only [e1, e2, hb]
  unfold Cert.MlpSpec.out
  refine congrArg (· + x4 (ix1 (n := 1024) (i 1))) (Finset.sum_congr rfl fun k _ => ?_)
  exact congrArg (· * x3 (ix2 (n0 := 4096) (n1 := 1024) k (i 1))) (hidden_at x0 x1 x2 (i 0) k)

end Cert.ReferenceIdeal.RefValue

end
-- ==== Proof.ScratchValue.lean ====
/-
  What the kernel's body leaves behind at a grid point, as values.

  The body has two cases. Where the inner grid coordinate is zero it first fills its two weight scratch buffers: it
  copies `W1` in four column blocks of 1024 columns and `W2` in four row blocks of 1024 rows through a two-slot
  staging buffer, changing the format of each block (the identity on extended reals) and storing it at the block's
  own place; so the four stored pieces of each scratch agree, entry by entry, with one function of the scratch
  index — the weight array itself — and together they cover the scratch: the scratch ends EQUAL to the weight array
  (`left_A`, `right_A`). At every other point the body leaves both scratch buffers as it found them. In both cases
  it then stores one block of the result: the payload of the point's block of `x`, the two scratch buffers, and the
  two bias rows (`out_A`, `out_B`).

  So, by induction along the grid, after EVERY point the two scratch buffers hold `W1` and `W2` (`carried`): a
  point of the first case establishes it whatever came before, a point of the second case inherits it. And hence
  after every point the output's staging buffer holds the payload of that point's blocks and of the two weight
  arrays themselves (`block_eq`): the kernel's result, block by block, never sees that the weights went through a
  scratch.
-/
import proofs.«424009_j4801773437611_3_alg».proof.Proof.KernelIdealFrame
import Idealize.ShloMosaic.Lib.Pipeline.Value
import Idealize.ShloMosaic.Lib.Tactic
import Idealize.ShloMosaic.PureOps.Ideal
import Idealize.ShloMosaic.Lib.ValueIdx

noncomputable section

namespace Cert.KernelIdeal.ScratchValue

open Cert.KernelIdeal Cert.KernelIdeal.Gen Cert.KernelIdeal.GenP Idealize.ShloMosaic Idealize.ShloMosaic.TcCoe Idealize.SL.Sem

theorem hz2 : (![0, 0] : Fin 2 → Nat) = fun _ => 0 := funext fun a => by fin_cases a <;> rfl

/-! ## One point's body, on any staging memrefs -/

section Body

variable (c : Dev nD) (i : grid0.Coords) (arg2 : Memref sig .tc .vmem S512x1024 .f32) (harg2 : arg2.IsWhole) (arg4 : Memref sig .tc .vmem S1x4096 .f32) (harg4 : arg4.IsWhole) (arg6 : Memref sig .tc .vmem S1x1024 .f32) (harg6 : arg6.IsWhole) (arg7 : Memref sig .tc .vmem S512x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S2x1024x1024 .f32) (harg10 : arg10.IsWhole)

/-- The four column blocks of `W1` the first case stores tile the scratch and agree with `W1` on it. -/
theorem canon_left (hc0 : cond0_0 i) (x0 : Vec Ideal S512x1024 .f32) (x1 : Vec Ideal S1x4096 .f32) (x2 : Vec Ideal S1x1024 .f32)
    (fh0 : HbBuf0 (F := Ideal) c hbM0_0) (fh1 : HbBuf0 (F := Ideal) c hbM0_1) :
    View.canon (kernelRun0_A (F := Ideal) c i arg2 harg2 arg4 harg4 arg6 harg6 arg7 harg7 arg8 harg8 arg9 harg9 arg10 harg10 hc0 x0 x1 x2 fh0 fh1).2.1 = fh0 := by
  funext y
  refine View.canon_apply_of_pieces (G := fh0) _ ?_ y (scover0_A_0 (F := Ideal) c i arg2 harg2 arg4 harg4 arg6 harg6 arg7 harg7 arg8 harg8 arg9 harg9 arg10 harg10 hc0 x0 x1 x2 fh0 fh1 y)
  unfold kernelRun0_A
  dsimp only
  intro p hp x
  simp only [List.mem_cons, List.mem_nil_iff, or_false] at hp
  rcases hp with rfl | rfl | rfl | rfl
  all_goals (rw [shapeCast_self]; rfl)

/-- The four row blocks of `W2` likewise. -/
theorem canon_right (hc0 : cond0_0 i) (x0 : Vec Ideal S512x1024 .f32) (x1 : Vec Ideal S1x4096 .f32) (x2 : Vec Ideal S1x1024 .f32)
    (fh0 : HbBuf0 (F := Ideal) c hbM0_0) (fh1 : HbBuf0 (F := Ideal) c hbM0_1) :
    View.canon (kernelRun0_A (F := Ideal) c i arg2 harg2 arg4 harg4 arg6 harg6 arg7 harg7 arg8 harg8 arg9 harg9 arg10 harg10 hc0 x0 x1 x2 fh0 fh1).2.2.1 = fh1 := by
  funext y
  refine View.canon_apply_of_pieces (G := fh1) _ ?_ y (scover0_A_1 (F := Ideal) c i arg2 harg2 arg4 harg4 arg6 harg6 arg7 harg7 arg8 harg8 arg9 harg9 arg10 harg10 hc0 x0 x1 x2 fh0 fh1 y)
  unfold kernelRun0_A
  dsimp only
  intro p hp x
  simp only [List.mem_cons, List.mem_nil_iff, or_false] at hp
  rcases hp with rfl | rfl | rfl | rfl
  all_goals (rw [shapeCast_self]; rfl)

/-- After a point of the first case the left scratch holds `W1`. -/
theorem left_A (hc0 : cond0_0 i) (x0 : Vec Ideal S512x1024 .f32) (x1 : Vec Ideal S1x4096 .f32) (x2 : Vec Ideal S1x1024 .f32)
    (fh0 : HbBuf0 (F := Ideal) c hbM0_0) (fh1 : HbBuf0 (F := Ideal) c hbM0_1) :
    sout0_A_0 (F := Ideal) c i arg2 harg2 arg4 harg4 arg6 harg6 arg7 harg7 arg8 harg8 arg9 harg9 arg10 harg10 hc0 x0 x1 x2 fh0 fh1 = fh0 := by
  unfold sout0_A_0
  rw [View.read_writes_eq_canon _ _ _ (scover0_A_0 (F := Ideal) c i arg2 harg2 arg4 harg4 arg6 harg6 arg7 harg7 arg8 harg8 arg9 harg9 arg10 harg10 hc0 x0 x1 x2 fh0 fh1)]
  exact canon_left c i arg2 harg2 arg4 harg4 arg6 harg6 arg7 harg7 arg8 harg8 arg9 harg9 arg10 harg10 hc0 x0 x1 x2 fh0 fh1

/-- After a point of the first case the right scratch holds `W2`. -/
theorem right_A (hc0 : cond0_0 i) (x0 : Vec Ideal S512x1024 .f32) (x1 : Vec Ideal S1x4096 .f32) (x2 : Vec Ideal S1x1024 .f32)
    (fh0 : HbBuf0 (F := Ideal) c hbM0_0) (fh1 : HbBuf0 (F := Ideal) c hbM0_1) :
    sout0_A_1 (F := Ideal) c i arg2 harg2 arg4 harg4 arg6 harg6 arg7 harg7 arg8 harg8 arg9 harg9 arg10 harg10 hc0 x0 x1 x2 fh0 fh1 = fh1 := by
  unfold sout0_A_1
  rw [View.read_writes_eq_canon _ _ _ (scover0_A_1 (F := Ideal) c i arg2 harg2 arg4 harg4 arg6 harg6 arg7 harg7 arg8 harg8 arg9 harg9 arg10 harg10 hc0 x0 x1 x2 fh0 fh1)]
  exact canon_right c i arg2 harg2 arg4 harg4 arg6 harg6 arg7 harg7 arg8 harg8 arg9 harg9 arg10 harg10 hc0 x0 x1 x2 fh0 fh1

/-- The block of the result a point of the first case stores: the payload of its inputs and of the weight arrays
    it has just copied (it reads the two scratch buffers back whole, over the pieces it stored). -/
theorem out_A (hc0 : cond0_0 i) (x0 : Vec Ideal S512x1024 .f32) (x1 : Vec Ideal S1x4096 .f32) (x2 : Vec Ideal S1x1024 .f32)
    (fh0 : HbBuf0 (F := Ideal) c hbM0_0) (fh1 : HbBuf0 (F := Ideal) c hbM0_1) :
    out0_A_3 (F := Ideal) c i arg2 harg2 arg4 harg4 arg6 harg6 arg7 harg7 arg8 harg8 arg9 harg9 arg10 harg10 hc0 x0 x1 x2 fh0 fh1 = k0_pay3 (F := Ideal) x0 fh0 x1 fh1 x2 := by
  unfold out0_A_3
  rw [View.read_writes_eq_canon _ _ _ (cover0_A_3 (F := Ideal) c i arg2 harg2 arg4 harg4 arg6 harg6 arg7 harg7 arg8 harg8 arg9 harg9 arg10 harg10 hc0 x0 x1 x2 fh0 fh1)]
  have hl := canon_left c i arg2 harg2 arg4 harg4 arg6 harg6 arg7 harg7 arg8 harg8 arg9 harg9 arg10 harg10 hc0 x0 x1 x2 fh0 fh1
  have hr := canon_right c i arg2 harg2 arg4 harg4 arg6 harg6 arg7 harg7 arg8 harg8 arg9 harg9 arg10 harg10 hc0 x0 x1 x2 fh0 fh1
  have cl : ∀ y, ∃ p ∈ (kernelRun0_A (F := Ideal) c i arg2 harg2 arg4 harg4 arg6 harg6 arg7 harg7 arg8 harg8 arg9 harg9 arg10 harg10 hc0 x0 x1 x2 fh0 fh1).2.1, y ∈ p.1.set := scover0_A_0 (F := Ideal) c i arg2 harg2 arg4 harg4 arg6 harg6 arg7 harg7 arg8 harg8 arg9 harg9 arg10 harg10 hc0 x0 x1 x2 fh0 fh1
  have cr : ∀ y, ∃ p ∈ (kernelRun0_A (F := Ideal) c i arg2 harg2 arg4 harg4 arg6 harg6 arg7 harg7 arg8 harg8 arg9 harg9 arg10 harg10 hc0 x0 x1 x2 fh0 fh1).2.2.1, y ∈ p.1.set := scover0_A_1 (F := Ideal) c i arg2 harg2 arg4 harg4 arg6 harg6 arg7 harg7 arg8 harg8 arg9 harg9 arg10 harg10 hc0 x0 x1 x2 fh0 fh1
  unfold kernelRun0_A at hl hr cl cr ⊢
  dsimp only at hl hr cl cr ⊢
  rw [View.canon_unit_zero hz2, View.readCov_eq_canon_ld _ _ _ cl, View.readCov_eq_canon_ld _ _ _ cr, hl, hr]
  simp only [View.readAt_eq_ld, harg2.read_unread, harg4.read_unread, harg6.read_unread, View.ld_unit_zero (S := S512x1024) hz2,
    View.ld_unit_zero (S := S1x4096) hz2, View.ld_unit_zero (S := S1x1024) hz2, View.ld_unit_zero (S := S1024x4096) hz2,
    View.ld_unit_zero (S := S4096x1024) hz2]

/-- The block of the result a point of the second case stores: the payload of its inputs and of what the two
    scratch buffers held when the point began. -/
theorem out_B (hc0 : ¬cond0_0 i) (x0 : Vec Ideal S512x1024 .f32) (x1 : Vec Ideal S1x4096 .f32) (x2 : Vec Ideal S1x1024 .f32)
    (xs0 : Vec Ideal S1024x4096 .bf16) (xs1 : Vec Ideal S4096x1024 .bf16)
    (fh0 : HbBuf0 (F := Ideal) c hbM0_0) (fh1 : HbBuf0 (F := Ideal) c hbM0_1) :
    out0_B_3 (F := Ideal) c i arg2 harg2 arg4 harg4 arg6 harg6 arg7 harg7 arg8 harg8 arg9 harg9 arg10 harg10 hc0 x0 x1 x2 xs0 xs1 fh0 fh1 = k0_pay3 (F := Ideal) x0 xs0 x1 xs1 x2 := by
  unfold out0_B_3
  rw [View.read_writes_eq_canon _ _ _ (cover0_B_3 (F := Ideal) c i arg2 harg2 arg4 harg4 arg6 harg6 arg7 harg7 arg8 harg8 arg9 harg9 arg10 harg10 hc0 x0 x1 x2 xs0 xs1 fh0 fh1)]
  unfold kernelRun0_B
  dsimp only
  rw [View.canon_unit_zero hz2]
  simp only [View.readAt_eq_ld, harg2.read_unread, harg4.read_unread, harg6.read_unread, harg8.read_unread, harg9.read_unread,
    View.ld_unit_zero (S := S512x1024) hz2, View.ld_unit_zero (S := S1x4096) hz2, View.ld_unit_zero (S := S1x1024) hz2,
    View.ld_unit_zero (S := S1024x4096) hz2, View.ld_unit_zero (S := S4096x1024) hz2]

end Body

/-! ## Along the grid -/

variable (m : (ℓ : Loc nD τ sig) → Buf (Elt Ideal) ℓ)

/-- After every grid point the two scratch buffers hold the two weight arrays as the region found them. -/
theorem carried (c : Dev nD) : ∀ (n : ℕ) (h : n < cfg0.N),
    (outsAt0 m c n h).2.1 = V m c main_arg1 ∧ (outsAt0 m c n h).2.2 = V m c main_arg3
  | 0, h => by
    rw [outsAt0_A m c ⟨0, h⟩ rfl]
    dsimp only
    exact ⟨left_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr rfl) (iblk m c 0 ⟨0, h⟩) (iblk m c 1 ⟨0, h⟩) (iblk m c 2 ⟨0, h⟩) (V m c main_arg1) (V m c main_arg3),
      right_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) ((hcond0_0 ⟨0, h⟩).mpr rfl) (iblk m c 0 ⟨0, h⟩) (iblk m c 1 ⟨0, h⟩) (iblk m c 2 ⟨0, h⟩) (V m c main_arg1) (V m c main_arg3)⟩
  | n + 1, h => by
    by_cases h0 : (n + 1) % 4 = 0
    · rw [outsAt0_A m c ⟨n + 1, h⟩ h0]
      dsimp only
      exact ⟨left_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (iblk m c 0 ⟨n + 1, h⟩) (iblk m c 1 ⟨n + 1, h⟩) (iblk m c 2 ⟨n + 1, h⟩) (V m c main_arg1) (V m c main_arg3),
        right_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) ((hcond0_0 ⟨n + 1, h⟩).mpr h0) (iblk m c 0 ⟨n + 1, h⟩) (iblk m c 1 ⟨n + 1, h⟩) (iblk m c 2 ⟨n + 1, h⟩) (V m c main_arg1) (V m c main_arg3)⟩
    · rw [outsAt0_B m c ⟨n + 1, h⟩ h0]
      dsimp only
      unfold sout0_B_0 sout0_B_1
      exact carried c n (Nat.lt_of_succ_lt h)

/-- After every grid point the output's staging buffer holds the payload of the point's blocks and of the two weight
    arrays themselves. -/
theorem block_eq (c : Dev nD) (t : Fin cfg0.N) :
    (outsAt0 m c t.val t.isLt).1
      = k0_pay3 (F := Ideal) (iblk m c 0 t) (V m c main_arg1) (iblk m c 1 t) (V m c main_arg3) (iblk m c 2 t) := by
  by_cases h0 : t.val % 4 = 0
  · rw [outsAt0_A m c t h0]
    dsimp only
    exact out_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t) (V m c main_arg1) (V m c main_arg3)
  · rw [outsAt0_B m c t h0]
    dsimp only
    rw [out_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2
      (V m c main_arg1) (V m c main_arg3),
      (carried m c (t.val - 1) (Nat.lt_of_le_of_lt (Nat.sub_le _ _) t.isLt)).1,
      (carried m c (t.val - 1) (Nat.lt_of_le_of_lt (Nat.sub_le _ _) t.isLt)).2]

end Cert.KernelIdeal.ScratchValue

end
-- ==== Proof.PayloadAt.lean ====
/-
  The value the kernel's one output store writes, read at one entry.

  The payload is built from the block of `x` and the four parameter arrays by: a format change of `x` (the identity
  on extended reals), a product into a zero accumulator against `W1` (entry `(p, j)` is the sum over `k` of
  `x(p, k) · W1(k, j)`), the row `b1` repeated down the 512 rows (entry `(p, j)` is `b1(0, j)`), the entrywise maximum
  with a repeated zero word, a second format change, a product into a zero accumulator against `W2` (entry `(p, q)` is
  the sum over `j` of the rectified entry `(p, j)` times `W2(j, q)`), and the row `b2` repeated down the rows. Reading
  each of these at an index and composing gives the two-layer formula on the nose; the only work is to identify the
  index maps of the two products with coordinate pairs.
-/
import proofs.«424009_j4801773437611_3_alg».proof.Proof.Gen.KernelIdeal.Skeleton
import proofs.«424009_j4801773437611_3_alg».proof.Proof.MlpSpec
import Idealize.ShloMosaic.Lib.ValueIdx
import Idealize.ShloMosaic.Lib.Pipeline.Value
import Idealize.ShloMosaic.Lib.ValueLayout
import Idealize.ShloMosaic.PureOps.Ideal.Laws

namespace Cert.KernelIdeal.PayValue
open Cert.KernelIdeal Cert.KernelIdeal.Gen Idealize.ShloMosaic Idealize.ShloMosaic.ValueIdx

/-! ## The first product: `[512, 1024] × [1024, 4096]`, contracting the left operand's columns with the right's rows

The four coordinates of the operand indices at result index `i` and contraction position `q`: the left index is
`(i 0, q)`, the right one `(q, i 1)`. -/

private theorem lhs_mm1_0 (i : S512x4096.Idx) (q : dot_S512x1024_S1024x4096_S512x4096_1_0_0_1_n_n.contr.Idx) :
    (dot_S512x1024_S1024x4096_S512x4096_1_0_0_1_n_n.lhsIdx i q 0).val = (i 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl
private theorem lhs_mm1_1 (i : S512x4096.Idx) (q : dot_S512x1024_S1024x4096_S512x4096_1_0_0_1_n_n.contr.Idx) :
    (dot_S512x1024_S1024x4096_S512x4096_1_0_0_1_n_n.lhsIdx i q 1).val = (q ⟨0, by decide⟩).val :=
  dot_S512x1024_S1024x4096_S512x4096_1_0_0_1_n_n.lhsIdx_val_of_single rfl i q
private theorem rhs_mm1_0 (i : S512x4096.Idx) (q : dot_S512x1024_S1024x4096_S512x4096_1_0_0_1_n_n.contr.Idx) :
    (dot_S512x1024_S1024x4096_S512x4096_1_0_0_1_n_n.rhsIdx i q 0).val = (q ⟨0, by decide⟩).val :=
  dot_S512x1024_S1024x4096_S512x4096_1_0_0_1_n_n.rhsIdx_val_of_single rfl i q
private theorem rhs_mm1_1 (i : S512x4096.Idx) (q : dot_S512x1024_S1024x4096_S512x4096_1_0_0_1_n_n.contr.Idx) :
    (dot_S512x1024_S1024x4096_S512x4096_1_0_0_1_n_n.rhsIdx i q 1).val = (i 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl

/-- The first product into the zero accumulator, read at `(p, c)`: row `p` of the left operand against column `c` of the right. -/
private theorem mm1_apply (a : FVec Ideal S512x1024 .bf16) (w : FVec Ideal S1024x4096 .bf16) (p : Fin 512) (c : Fin 4096) :
    matmul (F := Ideal) dot_S512x1024_S1024x4096_S512x4096_1_0_0_1_n_n none a w (constant (F := Ideal) S512x4096 .f32 0x00000000#32) (ix2 p c)
      = ∑ k : Fin 1024, a (ix2 p k) * w (ix2 k c) := by
  show FloatOps.matmul dot_S512x1024_S1024x4096_S512x4096_1_0_0_1_n_n none a w (constant (F := Ideal) S512x4096 .f32 0x00000000#32) (ix2 p c) = _
  rw [Ideal.matmul_constant_zero_apply, ← Equiv.sum_comp (contrEquiv1 dot_S512x1024_S1024x4096_S512x4096_1_0_0_1_n_n 1024 rfl rfl).symm]
  refine Finset.sum_congr rfl fun k _ => ?_
  have hk := contrEquiv1_symm_val dot_S512x1024_S1024x4096_S512x4096_1_0_0_1_n_n 1024 rfl rfl k
  have el : dot_S512x1024_S1024x4096_S512x4096_1_0_0_1_n_n.lhsIdx (ix2 p c) ((contrEquiv1 dot_S512x1024_S1024x4096_S512x4096_1_0_0_1_n_n 1024 rfl rfl).symm k) = ix2 p k := funext fun ax => Fin.ext (by
    match ax with
    | ⟨0, _⟩ => exact lhs_mm1_0 _ _
    | ⟨1, _⟩ => exact (lhs_mm1_1 _ _).trans hk)
  have er : dot_S512x1024_S1024x4096_S512x4096_1_0_0_1_n_n.rhsIdx (ix2 p c) ((contrEquiv1 dot_S512x1024_S1024x4096_S512x4096_1_0_0_1_n_n 1024 rfl rfl).symm k) = ix2 k c := funext fun ax => Fin.ext (by
    match ax with
    | ⟨0, _⟩ => exact (rhs_mm1_0 _ _).trans hk
    | ⟨1, _⟩ => exact rhs_mm1_1 _ _)
  rw [el, er]

/-! ## The second product: `[512, 4096] × [4096, 1024]`, the same pattern of axes -/

private theorem lhs_mm2_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
private theorem lhs_mm2_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
private theorem rhs_mm2_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
private theorem rhs_mm2_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The second product into the zero accumulator, read at `(p, c)`. -/
private theorem mm2_apply (a : FVec Ideal S512x4096 .bf16) (w : FVec Ideal S4096x1024 .bf16) (p : Fin 512) (c : Fin 1024) :
    matmul (F := Ideal) dot_S512x4096_S4096x1024_S512x1024_1_0_0_1_n_n none a w (constant (F := Ideal) S512x1024 .f32 0x00000000#32) (ix2 p c)
      = ∑ k : Fin 4096, a (ix2 p k) * w (ix2 k c) := by
  show FloatOps.matmul dot_S512x4096_S4096x1024_S512x1024_1_0_0_1_n_n none a w (constant (F := Ideal) S512x1024 .f32 0x00000000#32) (ix2 p c) = _
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p c) ((contrEquiv1 dot_S512x4096_S4096x1024_S512x1024_1_0_0_1_n_n 4096 rfl rfl).symm k) = ix2 p k := funext fun ax => Fin.ext (by
    match ax with
    | ⟨0, _⟩ => exact lhs_mm2_0 _ _
    | ⟨1, _⟩ => exact (lhs_mm2_1 _ _).trans hk)
  have er : dot_S512x4096_S4096x1024_S512x1024_1_0_0_1_n_n.rhsIdx (ix2 p c) ((contrEquiv1 dot_S512x4096_S4096x1024_S512x1024_1_0_0_1_n_n 4096 rfl rfl).symm k) = ix2 k c := funext fun ax => Fin.ext (by
    match ax with
    | ⟨0, _⟩ => exact (rhs_mm2_0 _ _).trans hk
    | ⟨1, _⟩ => exact rhs_mm2_1 _ _)
  rw [el, er]

/-! ## The payload at an entry -/

/-- The rectified first layer inside the payload, read at `(p, j)`: the first product's entry plus `b1`'s one row at
    `j`, compared with the zero word. The cast of `b1` to its own shape is the identity and the repeated row reads
    its column. -/
private theorem hidden_apply (x0 : FVec Ideal S512x1024 .f32) (w1 : FVec Ideal S1024x4096 .bf16) (b1 : FVec Ideal S1x4096 .f32)
    (p : Fin 512) (j : Fin 4096) :
    maximumf (F := Ideal)
        (addf (matmul (F := Ideal) dot_S512x1024_S1024x4096_S512x4096_1_0_0_1_n_n none (truncf .bf16 x0 bitsLt_bf16_f32) w1 (constant (F := Ideal) S512x4096 .f32 0x00000000#32))
          (broadcastTo S512x4096 (shapeCast S1x4096 b1 shapeCasts_S1x4096_S1x4096) broadcasts_S1x4096_S512x4096))
        (broadcast S512x4096 (Scalar.ofBits (F := Ideal) .f32 0x00000000#32)) (ix2 p j)
      = max ((∑ k : Fin 1024, x0 (ix2 p k) * w1 (ix2 k j)) + b1 (ix2 (0 : Fin 1) j)) Cert.MlpSpec.zeroWord := by
  rw [maximumf_apply, addf_apply, mm1_apply, broadcastTo_1b_ab_apply, shapeCast_self b1]
  rfl

/-- The stored payload at entry `(p, q)`: the rectified first layer of row `p` against column `q` of `W2`, plus
    `b2`'s one row at `q`. The second format change is the identity, the second product sums over the 4096 hidden
    units, and each hidden unit is read by the lemma above. -/
theorem pay3_apply (x0 : Vec Ideal S512x1024 .f32) (w1 : Vec Ideal S1024x4096 .bf16) (b1 : Vec Ideal S1x4096 .f32)
    (w2 : Vec Ideal S4096x1024 .bf16) (b2 : Vec Ideal S1x1024 .f32) (p : Fin 512) (q : Fin 1024) :
    k0_pay3 (F := Ideal) x0 w1 b1 w2 b2 (ix2 p q)
      = (∑ j : Fin 4096, max ((∑ k : Fin 1024, x0 (ix2 p k) * w1 (ix2 k j)) + b1 (ix2 (0 : Fin 1) j)) Cert.MlpSpec.zeroWord
            * w2 (ix2 j q)) + b2 (ix2 (0 : Fin 1) q) := by
  unfold k0_pay3
  rw [addf_apply, mm2_apply, broadcastTo_1b_ab_apply, shapeCast_self b2]
  refine congrArg (· + b2 (ix2 (0 : Fin 1) q)) (Finset.sum_congr rfl fun j _ => ?_)
  exact congrArg (· * w2 (ix2 j q)) (hidden_apply x0 w1 b1 p j)

end Cert.KernelIdeal.PayValue
-- ==== Proof.BlocksToArray.lean ====
/-
  From the blocks to the array.

  The grid has eight points; point `t` takes rows `512·t … 512·t + 511` of `x` and writes the same rows of the result.
  Granted that what the output's staging buffer holds after point `t` is the body's payload of that point's blocks
  (the hypothesis of `final_of_blocks`), the result array ends holding the two-layer perceptron of the five arguments:

  * the block of `x` at point `t`, read at `(p, k)`, is `x(512·t + p, k)`; the two bias rows are staged whole, each the
    argument vector given a leading unit axis by a reshape before the region, so the staged row at `(0, j)` is `b(j)`;
  * the payload at `(p, q)` is the nested sum of PayloadAt.lean, which with those readings is the perceptron's entry
    `(512·t + p, q)`: a row of the perceptron depends on that one row of `x` only, so cutting `x` into row blocks does
    not change it;
  * so what point `t` writes back is block `t` of the perceptron, and since the eight blocks of 512 rows cover the
    4096 rows (row `r` lies in block `r / 512`), the array after the run is the perceptron everywhere.
-/
import proofs.«424009_j4801773437611_3_alg».proof.Proof.KernelIdealValue
import proofs.«424009_j4801773437611_3_alg».proof.Proof.PayloadAt
import proofs.«424009_j4801773437611_3_alg».proof.Proof.MlpSpec
import Idealize.ShloMosaic.Lib.Pipeline.Value
import Idealize.ShloMosaic.Lib.ValueIdx
import Idealize.ShloMosaic.Lib.StableHlo.Run

noncomputable section
namespace Cert.KernelIdeal.BlockValue
open Cert.KernelIdeal Cert.KernelIdeal.Gen Cert.KernelIdeal.GenP Cert.KernelIdeal.ValueP Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The two-layer perceptron of the five argument arrays as the program is launched with them. -/
abbrev spec (c : Dev nD) : Buf (Elt Ideal) ((c : Thread nD τ).loc main_v2) :=
  Cert.MlpSpec.out (m ((c : Thread nD τ).loc main_arg0)) (m ((c : Thread nD τ).loc main_arg1)) (m ((c : Thread nD τ).loc main_arg2))
    (m ((c : Thread nD τ).loc main_arg3)) (m ((c : Thread nD τ).loc main_arg4))

/-! ## Where each window's block sits at a grid point -/

/-- The block indices at point `t`, decided over the eight points: the block of `x` and the block of the result are
    both block `(t, 0)`; the two bias rows are always block `(0, 0)`. -/
private theorem block_index : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The two bias rows as the region finds them: the arguments, reshaped to one row -/

/-- The array window 1 stages is `b1` given a leading unit axis. -/
private theorem b1row_eq (c : Dev nD) : (V m c main_v0 : S1x4096.Idx → EReal)
    = shapeCast S1x4096 (m ((c : Thread nD τ).loc main_arg2) : S4096.Idx → EReal) shapeCasts_S4096_S1x4096 := by
  dsimp only [Gen.V, Gen.hostOps0]; after_results; rfl

/-- The array window 2 stages is `b2` given a leading unit axis. -/
private theorem b2row_eq (c : Dev nD) : (V m c main_v1 : S1x1024.Idx → EReal)
    = shapeCast S1x1024 (m ((c : Thread nD τ).loc main_arg4) : S1024.Idx → EReal) shapeCasts_S1024_S1x1024 := by
  dsimp only [Gen.V, Gen.hostOps0]; after_results; rfl

/-! ## The input blocks at a point, entry by entry -/

/-- Entry `(p, k)` of the block of `x` at point `t` is entry `(512·t + p, k)` of `x`. -/
private theorem xblock_apply (c : Dev nD) (t : Fin cfg0.N) (p : Fin 512) (k : Fin 1024) (r : Fin 4096) (hr : r.val = 512 * t.val + p.val) :
    (iblk m c 0 t : Vec Ideal S512x1024 .f32) (ix2 p k)
      = (m ((c : Thread nD τ).loc main_arg0) : S4096x1024.Idx → EReal) (ix2 r k) := by
  obtain ⟨h0, h1, -⟩ := block_index t
  unfold iblk
  rw [View.read_apply]
  show V m c main_arg0 (((cfg0.win 0).blk t).view.emb (ix2 p k)) = _
  rw [V_main_arg0 m c]
  refine congrArg (m ((c : Thread nD τ).loc main_arg0)) (funext fun a => Fin.ext ?_)
  match a with
  | ⟨0, _⟩ => show win0_0.index t (0 : Fin 2) * 512 + 1 * p.val = r.val; rw [h0, hr]; omega
  | ⟨1, _⟩ => show win0_0.index t (1 : Fin 2) * 1024 + 1 * k.val = k.val; rw [h1]; omega

/-- Entry `(0, j)` of the staged row of `b1`, at any point, is `b1(j)`. -/
private theorem b1block_apply (c : Dev nD) (t : Fin cfg0.N) (j : Fin 4096) :
    (iblk m c 1 t : Vec Ideal S1x4096 .f32) (ix2 (0 : Fin 1) j)
      = (m ((c : Thread nD τ).loc main_arg2) : S4096.Idx → EReal) (ix1 j) := by
  obtain ⟨-, -, -, -, h0, h1, -⟩ := block_index t
  unfold iblk
  rw [View.read_apply]
  show (V m c main_v0 : S1x4096.Idx → EReal) (((cfg0.win 1).blk t).view.emb (ix2 (0 : Fin 1) j)) = _
  have e : ((cfg0.win 1).blk t).view.emb (ix2 (0 : Fin 1) j) = ix2 (0 : Fin 1) j := funext fun a => Fin.ext (by
    match a with
    | ⟨0, _⟩ => show win0_1.index t (0 : Fin 2) * 1 + 1 * 0 = 0; rw [h0]
    | ⟨1, _⟩ => show win0_1.index t (1 : Fin 2) * 4096 + 1 * j.val = j.val; rw [h1]; omega)
  rw [e, b1row_eq m c]
  exact shapeCast_a_1a_apply _ _ (0 : Fin 1) j

/-- Entry `(0, q)` of the staged row of `b2`, at any point, is `b2(q)`. -/
private theorem b2block_apply (c : Dev nD) (t : Fin cfg0.N) (q : Fin 1024) :
    (iblk m c 2 t : Vec Ideal S1x1024 .f32) (ix2 (0 : Fin 1) q)
      = (m ((c : Thread nD τ).loc main_arg4) : S1024.Idx → EReal) (ix1 q) := by
  obtain ⟨-, -, -, -, -, -, h0, h1⟩ := block_index t
  unfold iblk
  rw [View.read_apply]
  show (V m c main_v1 : S1x1024.Idx → EReal) (((cfg0.win 2).blk t).view.emb (ix2 (0 : Fin 1) q)) = _
  have e : ((cfg0.win 2).blk t).view.emb (ix2 (0 : Fin 1) q) = ix2 (0 : Fin 1) q := funext fun a => Fin.ext (by
    match a with
    | ⟨0, _⟩ => show win0_2.index t (0 : Fin 2) * 1 + 1 * 0 = 0; rw [h0]
    | ⟨1, _⟩ => show win0_2.index t (1 : Fin 2) * 1024 + 1 * q.val = q.val; rw [h1]; omega)
  rw [e, b2row_eq m c]
  exact shapeCast_a_1a_apply _ _ (0 : Fin 1) q

/-! ## One entry of the payload against one entry of the perceptron -/

/-- If row `p` of a block `xb` is row `r` of `x`, and the staged rows `b1b`, `b2b` read `b1`, `b2`, then the payload of the
    block at `(p, q)` is the perceptron of the whole arrays at `(r, q)`: both are the same nested sum, term by term. -/
private theorem payload_entry (x : S4096x1024.Idx → EReal) (w1 : S1024x4096.Idx → EReal) (b1 : S4096.Idx → EReal)
    (w2 : S4096x1024.Idx → EReal) (b2 : S1024.Idx → EReal)
    (xb : Vec Ideal S512x1024 .f32) (b1b : Vec Ideal S1x4096 .f32) (b2b : Vec Ideal S1x1024 .f32)
    (p : Fin 512) (q : Fin 1024) (r : Fin 4096)
    (hx : ∀ k : Fin 1024, xb (ix2 p k) = x (ix2 r k))
    (hb1 : ∀ j : Fin 4096, b1b (ix2 (0 : Fin 1) j) = b1 (ix1 j))
    (hb2 : b2b (ix2 (0 : Fin 1) q) = b2 (ix1 q)) :
    k0_pay3 (F := Ideal) xb w1 b1b w2 b2b (ix2 p q) = Cert.MlpSpec.out x w1 b1 w2 b2 (ix2 r q) := by
  refine (PayValue.pay3_apply xb w1 b1b w2 b2b p q).trans ?_
  show _ = (∑ j : Fin 4096, max ((∑ k : Fin 1024, x (ix2 r k) * w1 (ix2 k j)) + b1 (ix1 j)) Cert.MlpSpec.zeroWord * w2 (ix2 j q)) + b2 (ix1 q)
  rw [hb2]
  refine congrArg (· + b2 (ix1 q)) (Finset.sum_congr rfl fun j _ => ?_)
  rw [hb1 j]
  refine congrArg (fun s => max (s + b1 (ix1 j)) Cert.MlpSpec.zeroWord * w2 (ix2 j q)) (Finset.sum_congr rfl fun k _ => ?_)
  rw [hx k]

/-! ## What a point writes back, and the cover -/

/-- WHAT POINT `t` WRITES BACK is block `t` of the perceptron of the argument arrays: entry `(p, q)` of the block is
    array entry `(512·t + p, q)`. -/
private theorem flushed_eq (c : Dev nD)
    (hblk : ∀ t : Fin cfg0.N, (outsAt0 m c t.val t.isLt).1
      = k0_pay3 (F := Ideal) (iblk m c 0 t) (V m c main_arg1) (iblk m c 1 t) (V m c main_arg3) (iblk m c 2 t))
    (t : Fin cfg0.N) :
    (dats m 0 c).flushed 3 t = ((cfg0.win 3).blk t).view.read (Elt Ideal) (spec m c) := by
  have hN : t.val < 8 := lt_of_lt_of_eq t.isLt N_0
  obtain ⟨-, -, h0, h1, -⟩ := block_index t
  rw [ValueP.flushed3, hblk t]
  refine funext fun (j : S512x1024.Idx) => ?_
  obtain ⟨p, q, rfl⟩ : ∃ (p : Fin 512) (q : Fin 1024), j = ix2 p q := ⟨j 0, j 1, eq_ix2 j⟩
  have ein : (cfg0.win 3).xinj (grid0.coords t) (ix2 p q) = ix2 p q := funext fun a => Fin.ext (by
    match a with
    | ⟨0, _⟩ => rfl
    | ⟨1, _⟩ => rfl)
  have eout : ((cfg0.win 3).blk t).view.emb (ix2 p q) = ix2 (⟨512 * t.val + p.val, by have := p.isLt; omega⟩ : Fin 4096) q := funext fun a => Fin.ext (by
    match a with
    | ⟨0, _⟩ => show win0_3.index t (0 : Fin 2) * 512 + 1 * p.val = 512 * t.val + p.val; rw [h0]; omega
    | ⟨1, _⟩ => show win0_3.index t (1 : Fin 2) * 1024 + 1 * q.val = q.val; rw [h1]; omega)
  rw [View.read_apply]
  show k0_pay3 (F := Ideal) (iblk m c 0 t) (V m c main_arg1) (iblk m c 1 t) (V m c main_arg3) (iblk m c 2 t) ((cfg0.win 3).xinj (grid0.coords t) (ix2 p q))
    = spec m c (((cfg0.win 3).blk t).view.emb (ix2 p q))
  rw [ein, eout, V_main_arg1 m c, V_main_arg3 m c]
  exact payload_entry (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) p q ⟨512 * t.val + p.val, by have := p.isLt; omega⟩
    (fun k => xblock_apply m c t p k ⟨512 * t.val + p.val, by have := p.isLt; omega⟩ rfl)
    (fun j => b1block_apply m c t j)
    (b2block_apply m c t q)

/-- An index of the result array is in point `t`'s block iff each coordinate is in the block's range on its axis. -/
private theorem mem_block (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- Row `r` of the result is written by the point `r / 512`: the eight blocks of 512 rows tile the 4096 rows. -/
private theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  let t : Fin cfg0.N := ⟨(i 0).val / 512, by rw [show cfg0.N = 8 from N_0]; omega⟩
  obtain ⟨-, -, h0, h1, -⟩ := block_index t
  have ht : t.val = (i 0).val / 512 := rfl
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; rw [h0, ht]; omega
  | ⟨1, _⟩ => show win0_3.index t (1 : Fin 2) * 1024 ≤ (i 1).val ∧ (i 1).val < win0_3.index t (1 : Fin 2) * 1024 + 1024; rw [h1]; omega

/-- If after every grid point the output's staging buffer holds the body's payload of that point's input blocks and of
    the two weight arrays as the region found them, the result array ends holding the perceptron of the arguments. -/
theorem final_of_blocks (c : Dev nD)
    (hblk : ∀ t : Fin cfg0.N, (outsAt0 m c t.val t.isLt).1
      = k0_pay3 (F := Ideal) (iblk m c 0 t) (V m c main_arg1) (iblk m c 1 t) (V m c main_arg3) (iblk m c 2 t)) :
    (dats m 0 c).arrAt 3 cfg0.N = spec m c :=
  (dats m 0 c).arrAt_eq_of_cover 3 (spec m c) (fun t _ => flushed_eq m c hblk t) cover

end Cert.KernelIdeal.BlockValue

end
-- ==== Proof.lean ====
/-
  The certificate: a two-layer perceptron `relu(x · W1 + b1) · W2 + b2` computed by a tiled kernel against its plain
  reference, over the extended reals.

  The kernel walks a [2, 4] grid; at each point it takes 512 rows of `x`, multiplies them by `W1`, adds `b1`,
  rectifies, multiplies by `W2` and adds `b2`, and writes the 512 result rows. The two weight arrays do not come
  through the pipeline's windows: at the first point of each outer grid row the body copies them, block by block and
  with a change of float format, into two scratch buffers that it keeps for the following points. At the ideal values
  the format changes are the identity, a product into a zero accumulator is the plain sum, and a sum over `k` or `j`
  of one row does not see where the rows were cut: so both programs compute, entry by entry, the one function
  `Cert.MlpSpec.out` of the five argument arrays.

  The pieces, each in its own module:
    MlpSpec.lean        the function both programs compute;
    RefIsSpec.lean      the reference's nine host operations, read one at a time, compose to it;
    PayloadAt.lean      the value of the kernel's one output store at an entry is the two-layer formula of its operands;
    ScratchValue.lean   after every grid point the two scratch buffers hold `W1` and `W2` (by induction along the grid),
                        hence each point's output block is the payload of the point's rows and of the weight arrays;
    BlocksToArray.lean  the eight blocks tile the result array, and block `t`'s entry `(p, q)` is entry `(512 t + p, q)`;
    LibStageSlot.lean   a buffer written slot by slot through one view and read back through another (general).
  Here the five claims are assembled: the three frames are the frame runs with the result dropped, the idealization
  rewrote nothing, and the two runs end at the same function of arguments that agree.
-/
import proofs.«424009_j4801773437611_3_alg».proof.Defs
import proofs.«424009_j4801773437611_3_alg».proof.Proof.Gen.Kernel
import proofs.«424009_j4801773437611_3_alg».proof.Proof.Gen.KernelIdeal
import proofs.«424009_j4801773437611_3_alg».proof.Proof.Gen.ReferenceIdeal
import proofs.«424009_j4801773437611_3_alg».proof.Proof.Gen.Pre_finite_inputs
import proofs.«424009_j4801773437611_3_alg».proof.Proof.Gen.ReferenceIdeal.Run
import proofs.«424009_j4801773437611_3_alg».proof.Proof.Gen.ReferenceIdeal.Read
import proofs.«424009_j4801773437611_3_alg».proof.Proof.KernelFrame
import proofs.«424009_j4801773437611_3_alg».proof.Proof.KernelIdealValue
import proofs.«424009_j4801773437611_3_alg».proof.Proof.MlpSpec
import proofs.«424009_j4801773437611_3_alg».proof.Proof.RefIsSpec
import proofs.«424009_j4801773437611_3_alg».proof.Proof.ScratchValue
import proofs.«424009_j4801773437611_3_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs and leaves its arguments alone: its frame run. -/
theorem frame_kernel : Cert.frame_Kernel := fun m ρ _ => Cert.Kernel.GenP.frame m ρ

/-- The same for its idealization. -/
theorem frame_kernelIdeal : Cert.frame_KernelIdeal := fun m ρ _ => Cert.KernelIdeal.GenP.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- The idealized kernel's run with its result array named: the perceptron of the arguments, the arguments kept. The
    result array is the eight flushed blocks; each block is the payload of its point (the scratch buffers hold the
    weights at every point), and the blocks tile the array. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2) = Cert.KernelIdeal.BlockValue.spec m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun _ h c => ⟨(h c).1.trans (Cert.KernelIdeal.BlockValue.final_of_blocks m c (Cert.KernelIdeal.ScratchValue.block_eq m c)), (h c).2⟩)
    (Cert.KernelIdeal.ValueP.run_blocks m ρ)

/-- From memories that agree on the five arguments both idealized programs end with the perceptron of those
    arguments in their result arrays: the kernel by `kernel_run`, the reference by its run, whose composed term is
    the same function (`RefValue.result_eq`). -/
theorem algebraic : Cert.algebraic_KernelIdeal_ReferenceIdeal := by
  intro m ρ m' ρ' _ hagree
  refine ⟨fun c => Cert.KernelIdeal.BlockValue.spec m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
